-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S4096x64x256 : Shape := ⟨3, ![4096, 64, 256]⟩
abbrev S1x1 : Shape := ⟨2, ![1, 1]⟩
abbrev S64x64x256 : Shape := ⟨3, ![64, 64, 256]⟩
abbrev S64x256 : Shape := ⟨2, ![64, 256]⟩
abbrev S64x64 : Shape := ⟨2, ![64, 64]⟩
abbrev S64x64x1 : Shape := ⟨3, ![64, 64, 1]⟩
abbrev S64 : Shape := ⟨1, ![64]⟩
abbrev S1x64 : Shape := ⟨2, ![1, 64]⟩
abbrev S1 : Shape := ⟨1, ![1]⟩
abbrev S64x1 : Shape := ⟨2, ![64, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S4096x16384, .f32⟩
  | .hbm, ⟨1, _⟩ => ⟨S4096x64x256, .f32⟩
  | .hbm, ⟨2, _⟩ => ⟨S1x1, .f32⟩
  | .hbm, ⟨3, _⟩ => ⟨S_, .f32⟩
  | .local _ .vmem, ⟨0, _⟩ => ⟨S64x64x256, .f32⟩
  | .local _ .vmem, ⟨1, _⟩ => ⟨S64x64x256, .f32⟩
  | .local _ .vmem, ⟨2, _⟩ => ⟨S1x1, .f32⟩
  | .local _ .vmem, ⟨3, _⟩ => ⟨S1x1, .f32⟩
  | .local _ .vmem, ⟨4, _⟩ => ⟨S64x256, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v37 : BitVec 1 := Scalar.cmpi .eq arg0 c63_i32
  let v38 : BitVec 32 := Scalar.extui v37
  let c0_i32_18 : BitVec 32 := 0#32
  let v39 : BitVec 1 := Scalar.cmpi .ne v38 c0_i32_18
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S4096x16384_S4096x64x256 : S4096x16384.ShapeCasts S4096x64x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x64x256_S64x64x256_0_0_0 : ∀ a, (![0, 0, 0] : Fin 3 → Nat) a + S64x64x256.size a ≤ S64x64x256.size a
  h_S64x64x256 : 0 < S64x64x256.numel
  shapeCasts_S64x64x256_S64x64x256 : S64x64x256.ShapeCasts S64x64x256
  reduces_S64x64x256_S64x64 : S64x64x256.Reduces [2] S64x64
  shapeCasts_S64x64_S64x64x1 : S64x64.ShapeCasts S64x64x1
  broadcasts_S64x64x1_S64x64x256 : S64x64x1.Broadcasts S64x64x256
  reduces_S64x64_S64 : S64x64.Reduces [0] S64
  shapeCasts_S64_S1x64 : S64.ShapeCasts S1x64
  reduces_S1x64_S1 : S1x64.Reduces [1] S1
  shapeCasts_S1_S1x1 : S1.ShapeCasts S1x1
  reduces_S64x64x256_S64x256 : S64x64x256.Reduces [0] S64x256
  reduces_S64x256_S64 : S64x256.Reduces [1] S64
  shapeCasts_S64_S64x1 : S64.ShapeCasts S64x1
  broadcasts_S64x1_S64x256 : S64x1.Broadcasts S64x256
  reduces_S64x1_S1 : S64x1.Reduces [0] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S4096x64x256.size a
  hwx0_0 : ∀ i : grid0.Coords, EltTy.bits .f32 = 32 ∨ (Rect.block (s := S4096x64x256) S64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x16384 : Shape := ⟨2, ![4096, 16384]⟩
abbrev S4096x64x256 : Shape := ⟨3, ![4096, 64, 256]⟩
abbrev S_ : Shape := ⟨0, ![]⟩
abbrev S4096x64 : Shape := ⟨2, ![4096, 64]⟩
abbrev S4096x64x1 : Shape := ⟨3, ![4096, 64, 1]⟩
abbrev S64x256 : Shape := ⟨2, ![64, 256]⟩
abbrev S64 : Shape := ⟨1, ![64]⟩
abbrev S64x1 : Shape := ⟨2, ![64, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x64x256, .f32⟩
  | .hbm, ⟨2, _⟩ => ⟨S_, .f32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S4096x64x1, .f32⟩
  | .hbm, ⟨8, _⟩ => ⟨S4096x64x256, .f32⟩
  | .hbm, ⟨9, _⟩ => ⟨S4096x64x256, .f32⟩
  | .hbm, ⟨10, _⟩ => ⟨S4096x64x256, .f32⟩
  | .hbm, ⟨11, _⟩ => ⟨S_, .f32⟩
  | .hbm, ⟨12, _⟩ => ⟨S4096x64, .f32⟩
  | .hbm, ⟨13, _⟩ => ⟨S4096x64x1, .f32⟩
  | .hbm, ⟨14, _⟩ => ⟨S4096x64x1, .f32⟩
  | .hbm, ⟨15, _⟩ => ⟨S4096x64x256, .f32⟩
  | .hbm, ⟨16, _⟩ => ⟨S4096x64x256, .f32⟩
  | .hbm, ⟨17, _⟩ => ⟨S4096x64x256, .f32⟩
  | .hbm, ⟨18, _⟩ => ⟨S4096x64x256, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64x256, .f32⟩
  | .hbm, ⟨28, _⟩ => ⟨S_, .f32⟩
  | .hbm, ⟨29, _⟩ => ⟨S64x256, .f32⟩
  | .hbm, ⟨30, _⟩ => ⟨S64x256, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64x1, .f32⟩
  | .hbm, ⟨37, _⟩ => ⟨S64x256, .f32⟩
  | .hbm, ⟨38, _⟩ => ⟨S64x256, .f32⟩
  | .hbm, ⟨39, _⟩ => ⟨S64x256, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S64x1, .f32⟩
  | .hbm, ⟨44, _⟩ => ⟨S64x256, .f32⟩
  | .hbm, ⟨45, _⟩ => ⟨S64x256, .f32⟩
  | .hbm, ⟨46, _⟩ => ⟨S64x256, .f32⟩
  | .hbm, ⟨47, _⟩ => ⟨S64x256, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_4 : Ref sig .tc := ⟨.hbm, 48, rfl⟩
abbrev main_v14 : Ref sig .tc := ⟨.hbm, 49, rfl⟩
abbrev main_v15 : Ref sig .tc := ⟨.hbm, 50, rfl⟩
abbrev main_cst_5 : Ref sig .tc := ⟨.hbm, 51, rfl⟩
abbrev main_v16 : Ref sig .tc := ⟨.hbm, 52, rfl⟩
abbrev main_v17 : Ref sig .tc := ⟨.hbm, 53, rfl⟩
abbrev main_cst_6 : Ref sig .tc := ⟨.hbm, 54, rfl⟩
abbrev main_v18 : Ref sig .tc := ⟨.hbm, 55, rfl⟩
abbrev main_cst_7 : Ref sig .tc := ⟨.hbm, 56, rfl⟩
abbrev main_v19 : Ref sig .tc := ⟨.hbm, 57, rfl⟩
abbrev main_v20 : Ref sig .tc := ⟨.hbm, 58, rfl⟩

abbrev nD : Nat := 1
abbrev τ : Topo := Topo.v7x

variable {F : FTy → Type} [FloatOps F]

class Facts₀ : Prop where
  shapeCasts_S4096x16384_S4096x64x256 : S4096x16384.ShapeCasts S4096x64x256
  reducesTo_S4096x64x256_S4096x64_d2 : S4096x64x256.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x256_0_1_2 : S4096x64x1.BroadcastsInDim S4096x64x256 (![0, 1, 2] : Fin 3 → Fin S4096x64x256.rank)
  reducesTo_S4096x64_S_d0_1 : S4096x64.ReducesTo [0, 1] S_
  reducesTo_S4096x64x256_S64x256_d0 : S4096x64x256.ReducesTo [0] S64x256
  bcast_S_S64x256 : S_.BroadcastsInDim S64x256 (![] : Fin 0 → Fin S64x256.rank)
  reducesTo_S64x256_S64_d1 : S64x256.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  reducesTo_S64_S_d0 : S64.ReducesTo [0] S_

variable [Facts₀]

class Facts : Prop extends Facts₀ where

variable [Facts]
-- ==== Proof.Spec.lean ====
/-
  The loss both programs compute, over the extended reals.

  The input is read as X : 4096 rows × 64 blocks × 256 lanes. For a row r of 256 lanes, log-softmax is
  taken the way jax.nn.log_softmax does: the row's maximum (folded from -∞, then joined with -∞ once more)
  is subtracted, and from the shifted lanes the logarithm of the sum of their exponentials. `rowPlogp r` is
  Σₖ softmax(r)ₖ · log-softmax(r)ₖ, the negative of the row's entropy.

  The loss is  (Σ_T Σ_m −rowPlogp (X T m)) / 262144  +  1 · ((−Σ_m −rowPlogp (mean_T X T m ·)) / 64),
  the mean taken as the sum over the 4096 rows divided by 4096.

  The tiled program walks the rows in 64 tiles of 64: row T = 64·i + t. Sums over (i, t) are sums over T, and the
  order of the finite sums does not matter in a commutative monoid, which is all `loss_tiled` uses: no
  distributivity, so nothing here needs the entries to be finite.
-/
import Idealize.ShloMosaic.PureOps.Ideal
import Idealize.ShloMosaic.PureOps.Ideal.Laws
import Idealize.ShloMosaic.Lib.ValueIdx

noncomputable section

open scoped BigOperators

namespace Cert.EntropyLoss

open Idealize.ShloMosaic

/-- The f32 words the two programs share, read at the ideal instance. -/
abbrev negInf : EReal := Ideal.ofBits .f32 0xFF800000#32
abbrev w4096 : EReal := Ideal.ofBits .f32 0x45800000#32
abbrev w64 : EReal := Ideal.ofBits .f32 0x42800000#32
abbrev w262144 : EReal := Ideal.ofBits .f32 0x48800000#32
abbrev wOne : EReal := Ideal.ofBits .f32 0x3F800000#32

/-- A row's maximum as log_softmax takes it: the fold of `max` from -∞ over the lanes, joined with -∞. -/
def rowMax (r : Fin 256 → EReal) : EReal := max negInf ((Finset.univ : Finset (Fin 256)).fold max negInf r)

/-- The row shifted by its maximum. -/
def rowShift (r : Fin 256 → EReal) (k : Fin 256) : EReal := r k - rowMax r

/-- log-softmax of the row at lane `k`. -/
def rowLsm (r : Fin 256 → EReal) (k : Fin 256) : EReal :=
  rowShift r k - Ideal.log (∑ k' : Fin 256, Ideal.exp (rowShift r k'))

/-- Σₖ exp(lsmₖ) · lsmₖ: minus the entropy of softmax(r). -/
def rowPlogp (r : Fin 256 → EReal) : EReal := ∑ k : Fin 256, Ideal.exp (rowLsm r k) * rowLsm r k

/-- The per-block batch mean: the sum over all rows, divided by 4096. -/
def meanRow (X : Fin 4096 → Fin 64 → Fin 256 → EReal) (m : Fin 64) (k : Fin 256) : EReal :=
  Ideal.div (∑ T : Fin 4096, X T m k) w4096

/-- The loss. -/
def loss (X : Fin 4096 → Fin 64 → Fin 256 → EReal) : EReal :=
  Ideal.div (∑ T : Fin 4096, ∑ m : Fin 64, -(rowPlogp (X T m))) w262144
    + wOne * Ideal.div (-(∑ m : Fin 64, -(rowPlogp (meanRow X m)))) w64

/-- Row `t` of tile `i`. -/
def tileRow (i t : Fin 64) : Fin 4096 := ⟨64 * i.val + t.val, by omega⟩

/-- What one tile adds to the entropy accumulator: over the blocks, over the tile's rows. -/
def tileEnt (x : Fin 64 → Fin 64 → Fin 256 → EReal) : EReal := ∑ m : Fin 64, ∑ t : Fin 64, -(rowPlogp (x t m))

/-- What one tile adds to the block-sum accumulator at (m, k). -/
def tileSum (x : Fin 64 → Fin 64 → Fin 256 → EReal) (m : Fin 64) (k : Fin 256) : EReal := ∑ t : Fin 64, x t m k

/-- A sum over tiles and rows of a tile is the sum over all rows. -/
theorem sum_tiles {M : Type*} [AddCommMonoid M] (f : Fin 4096 → M) :
    ∑ i : Fin 64, ∑ t : Fin 64, f (tileRow i t) = ∑ T : Fin 4096, f T := by
  rw [← Fintype.sum_prod_type' (fun i t => f (tileRow i t))]
  refine Fintype.sum_equiv (finProdFinEquiv (m := 64) (n := 64)) _ (fun T : Fin (64 * 64) => f T) (fun p => congrArg f (Fin.ext ?_))
  show 64 * p.1.val + p.2.val = p.2.val + 64 * p.1.val
  omega

/-- The tiled accumulation, finished as the kernel's last step finishes it, is the loss. -/
theorem loss_tiled (X : Fin 4096 → Fin 64 → Fin 256 → EReal) :
    Ideal.div (∑ i : Fin 64, tileEnt (fun t m k => X (tileRow i t) m k)) w262144
      + wOne * Ideal.div (-(∑ m : Fin 64, -(rowPlogp (fun k =>
          Ideal.div (∑ i : Fin 64, tileSum (fun t m k => X (tileRow i t) m k) m k) w4096)))) w64
      = loss X := by
  have h1 : ∑ i : Fin 64, tileEnt (fun t m k => X (tileRow i t) m k)
      = ∑ T : Fin 4096, ∑ m : Fin 64, -(rowPlogp (X T m)) := by
    rw [← sum_tiles (fun T => ∑ m : Fin 64, -(rowPlogp (X T m)))]
    exact Finset.sum_congr rfl (fun i _ => Finset.sum_comm)
  have h2 : ∀ (m : Fin 64) (k : Fin 256),
      ∑ i : Fin 64, tileSum (fun t m k => X (tileRow i t) m k) m k = ∑ T : Fin 4096, X T m k :=
    fun m k => sum_tiles (fun T => X T m k)
  rw [h1]
  simp only [h2]
  rfl

/-- Zero minus a value is its negative, on the extended reals too. -/
theorem zero_sub_ereal (a : EReal) : (0 : EReal) - a = -a := by
  rw [sub_eq_add_neg, zero_add]

end Cert.EntropyLoss

end
-- ==== Proof.KPieces.lean ====
/-
  What each control case of the kernel body leaves behind, as values.

  The body has three cases: the first grid point (both accumulators are reset to zero, then updated), the middle points
  (both accumulators updated in place) and the last point (updated, then the result block is computed from them).
  In every case the entropy accumulator ends at (what it held) + (the tile's entropy sum), and the block-sum
  accumulator at (what it held) + (the tile's column sums); "what it held" is the zero block at the first point.
  At the last point the output block is the closing formula applied to the two UPDATED accumulators.
  Stated for any float instance: nothing here computes.
-/
import proofs.«161129_j472446403063_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point, entropy accumulator: zero, then plus the tile's entropy sum. -/
theorem ent_first (c : Dev nD) (i : grid0.Coords) (a1 : Memref sig .tc .vmem S64x64x256 .f32) (h1 : a1.IsWhole) (a2 : Memref sig .tc .vmem S1x1 .f32) (h2 : a2.IsWhole)
    (a3 : Memref sig .tc .vmem S1x1 .f32) (h3 : a3.IsWhole) (a4 : Memref sig .tc .vmem S64x256 .f32) (h4 : a4.IsWhole) (hc0 : cond0_0 i) (hc1 : ¬cond0_1 i)
    (x0 : Vec F S64x64x256 .f32) :
    sout0_A_0 c i a1 h1 a2 h2 a3 h3 a4 h4 hc0 hc1 x0 = k0_pay6 x0 (k0_pay3 (F := F)) := by
  unfold sout0_A_0
  rw [View.read_writes_eq_canon _ _ _ (scover0_A_0 c i a1 h1 a2 h2 a3 h3 a4 h4 hc0 hc1 x0)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S64x64x256) hz3, View.ld_unit_zero (S := S1x1) hz2]

/-- First point, block-sum accumulator: zero, then plus the tile's column sums. -/
theorem sum_first (c : Dev nD) (i : grid0.Coords) (a1 : Memref sig .tc .vmem S64x64x256 .f32) (h1 : a1.IsWhole) (a2 : Memref sig .tc .vmem S1x1 .f32) (h2 : a2.IsWhole)
    (a3 : Memref sig .tc .vmem S1x1 .f32) (h3 : a3.IsWhole) (a4 : Memref sig .tc .vmem S64x256 .f32) (h4 : a4.IsWhole) (hc0 : cond0_0 i) (hc1 : ¬cond0_1 i)
    (x0 : Vec F S64x64x256 .f32) :
    sout0_A_1 c i a1 h1 a2 h2 a3 h3 a4 h4 hc0 hc1 x0 = k0_pay1 (k0_pay7 x0 (k0_pay4 (F := F))) := by
  unfold sout0_A_1
  rw [View.read_writes_eq_canon _ _ _ (scover0_A_1 c i a1 h1 a2 h2 a3 h3 a4 h4 hc0 hc1 x0)]
  unfold kernelRun0_A
  dsimp only
  sl_unfold_words
  rw [View.canon_cons_unit_zero (S := S64x256) hz2, View.readCov_unit_zero (S := S64x256) _ hz2]
  simp only [View.readAt_eq_ld, h1.read_unread, View.ld_unit_zero (S := S64x64x256) hz3, View.ld_unit_zero (S := S64x256) hz2]

/-- Middle points, entropy accumulator. -/
theorem ent_mid (c : Dev nD) (i : grid0.Coords) (a1 : Memref sig .tc .vmem S64x64x256 .f32) (h1 : a1.IsWhole) (a2 : Memref sig .tc .vmem S1x1 .f32) (h2 : a2.IsWhole)
    (a3 : Memref sig .tc .vmem S1x1 .f32) (h3 : a3.IsWhole) (a4 : Memref sig .tc .vmem S64x256 .f32) (h4 : a4.IsWhole) (hc0 : ¬cond0_0 i) (hc1 : ¬cond0_1 i)
    (x0 : Vec F S64x64x256 .f32) (xs0 : Vec F S1x1 .f32) (xs1 : Vec F S64x256 .f32) :
    sout0_B_0 c i a1 h1 a2 h2 a3 h3 a4 h4 hc0 hc1 x0 xs0 xs1 = k0_pay6 x0 xs0 := by
  unfold sout0_B_0
  rw [View.read_writes_eq_canon _ _ _ (scover0_B_0 c i a1 h1 a2 h2 a3 h3 a4 h4 hc0 hc1 x0 xs0 xs1)]
  unfold kernelRun0_B
  dsimp only
  sl_unfold_words
  rw [View.canon_unit_zero hz2]
  simp only [View.readAt_eq_ld, h1.read_unread, h3.read_unread, View.ld_unit_zero (S := S64x64x256) hz3, View.ld_unit_zero (S := S1x1) hz2]

/-- Middle points, block-sum accumulator. -/
theorem sum_mid (c : Dev nD) (i : grid0.Coords) (a1 : Memref sig .tc .vmem S64x64x256 .f32) (h1 : a1.IsWhole) (a2 : Memref sig .tc .vmem S1x1 .f32) (h2 : a2.IsWhole)
    (a3 : Memref sig .tc .vmem S1x1 .f32) (h3 : a3.IsWhole) (a4 : Memref sig .tc .vmem S64x256 .f32) (h4 : a4.IsWhole) (hc0 : ¬cond0_0 i) (hc1 : ¬cond0_1 i)
    (x0 : Vec F S64x64x256 .f32) (xs0 : Vec F S1x1 .f32) (xs1 : Vec F S64x256 .f32) :
    sout0_B_1 c i a1 h1 a2 h2 a3 h3 a4 h4 hc0 hc1 x0 xs0 xs1 = k0_pay1 (k0_pay7 x0 xs1) := by
  unfold sout0_B_1
  rw [View.read_writes_eq_canon _ _ _ (scover0_B_1 c i a1 h1 a2 h2 a3 h3 a4 h4 hc0 hc1 x0 xs0 xs1)]
  unfold kernelRun0_B
  dsimp only
  sl_unfold_words
  rw [View.canon_unit_zero hz2]
  simp only [View.readAt_eq_ld, h1.read_unread, h4.read_unread, View.ld_unit_zero (S := S64x64x256) hz3, View.ld_unit_zero (S := S64x256) hz2]

/-- Last point, entropy accumulator. -/
theorem ent_last (c : Dev nD) (i : grid0.Coords) (a1 : Memref sig .tc .vmem S64x64x256 .f32) (h1 : a1.IsWhole) (a2 : Memref sig .tc .vmem S1x1 .f32) (h2 : a2.IsWhole)
    (a3 : Memref sig .tc .vmem S1x1 .f32) (h3 : a3.IsWhole) (a4 : Memref sig .tc .vmem S64x256 .f32) (h4 : a4.IsWhole) (hc0 : ¬cond0_0 i) (hc1 : cond0_1 i)
    (x0 : Vec F S64x64x256 .f32) (xs0 : Vec F S1x1 .f32) (xs1 : Vec F S64x256 .f32) :
    sout0_C_0 c i a1 h1 a2 h2 a3 h3 a4 h4 hc0 hc1 x0 xs0 xs1 = k0_pay6 x0 xs0 := by
  unfold sout0_C_0
  rw [View.read_writes_eq_canon _ _ _ (scover0_C_0 c i a1 h1 a2 h2 a3 h3 a4 h4 hc0 hc1 x0 xs0 xs1)]
  unfold kernelRun0_C
  dsimp only
  sl_unfold_words
  rw [View.canon_unit_zero hz2]
  simp only [View.readAt_eq_ld, h1.read_unread, h3.read_unread, View.ld_unit_zero (S := S64x64x256) hz3, View.ld_unit_zero (S := S1x1) hz2]

/-- Last point, block-sum accumulator. -/
theorem sum_last (c : Dev nD) (i : grid0.Coords) (a1 : Memref sig .tc .vmem S64x64x256 .f32) (h1 : a1.IsWhole) (a2 : Memref sig .tc .vmem S1x1 .f32) (h2 : a2.IsWhole)
    (a3 : Memref sig .tc .vmem S1x1 .f32) (h3 : a3.IsWhole) (a4 : Memref sig .tc .vmem S64x256 .f32) (h4 : a4.IsWhole) (hc0 : ¬cond0_0 i) (hc1 : cond0_1 i)
    (x0 : Vec F S64x64x256 .f32) (xs0 : Vec F S1x1 .f32) (xs1 : Vec F S64x256 .f32) :
    sout0_C_1 c i a1 h1 a2 h2 a3 h3 a4 h4 hc0 hc1 x0 xs0 xs1 = k0_pay1 (k0_pay7 x0 xs1) := by
  unfold sout0_C_1
  rw [View.read_writes_eq_canon _ _ _ (scover0_C_1 c i a1 h1 a2 h2 a3 h3 a4 h4 hc0 hc1 x0 xs0 xs1)]
  unfold kernelRun0_C
  dsimp only
  sl_unfold_words
  rw [View.canon_unit_zero hz2]
  simp only [View.readAt_eq_ld, h1.read_unread, h4.read_unread, View.ld_unit_zero (S := S64x64x256) hz3, View.ld_unit_zero (S := S64x256) hz2]

/-- Last point, the output block: the closing formula of the two updated accumulators. -/
theorem out_last (c : Dev nD) (i : grid0.Coords) (a1 : Memref sig .tc .vmem S64x64x256 .f32) (h1 : a1.IsWhole) (a2 : Memref sig .tc .vmem S1x1 .f32) (h2 : a2.IsWhole)
    (a3 : Memref sig .tc .vmem S1x1 .f32) (h3 : a3.IsWhole) (a4 : Memref sig .tc .vmem S64x256 .f32) (h4 : a4.IsWhole) (hc0 : ¬cond0_0 i) (hc1 : cond0_1 i)
    (x0 : Vec F S64x64x256 .f32) (xs0 : Vec F S1x1 .f32) (xs1 : Vec F S64x256 .f32) :
    out0_C_1 c i a1 h1 a2 h2 a3 h3 a4 h4 hc0 hc1 x0 xs0 xs1 = k0_pay2 (k0_pay1 (k0_pay7 x0 xs1)) (k0_pay6 x0 xs0) := by
  unfold out0_C_1
  rw [View.read_writes_eq_canon _ _ _ (cover0_C_1 c i a1 h1 a2 h2 a3 h3 a4 h4 hc0 hc1 x0 xs0 xs1)]
  unfold kernelRun0_C
  dsimp only
  sl_unfold_words
  rw [View.canon_unit_zero hz2]
  simp only [View.readAt_eq_ld, h1.read_unread, h3.read_unread, h4.read_unread, View.readCov_unit_zero (S := S64x256) _ hz2, View.readCov_unit_zero (S := S1x1) _ hz2,
    View.ld_unit_zero (S := S64x64x256) hz3, View.ld_unit_zero (S := S64x256) hz2, View.ld_unit_zero (S := S1x1) hz2]

end Cert.KernelIdeal.Pieces

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KPayAcc.lean ====
/-
  The two accumulator updates of the kernel body, read at an index over the extended reals.
-/
import proofs.«161129_j472446403063_1_alg».proof.Proof.Gen.KernelIdeal.Skeleton
import proofs.«161129_j472446403063_1_alg».proof.Proof.Spec
import proofs.«161129_j472446403063_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.PayAcc

open Cert.KernelIdeal Cert.KernelIdeal.Gen Cert.EntropyLoss

/-! ## The reductions and layout operations of the body, read at an index -/

/-- The maximum over the lanes of a [64, 64, 256] array, at (t, m): the fold of `max` from -∞ over the lanes. -/
theorem maxLanes_apply (src : FVec Ideal S64x64x256 .f32) (h : S64x64x256.Reduces [2] S64x64) (hφ : FKind.Formats .f32)
    (hacc : (0xFF800000#32 : BitVec 32) = FKind.maximumf.neutral .f32 hφ) (t m : Fin 64) :
    multiReduction .maximumf [2] S64x64 src 0xFF800000#32 h hφ hacc (ix2 t m)
      = (Finset.univ : Finset (Fin 256)).fold max negInf (fun k => src (ix3 t m k)) := by
  refine (Ideal.multiReduction_maximumf_single src _ h hφ hacc (ix2 t m)).trans ?_
  refine congrArg (fun f : Fin 256 → EReal => (Finset.univ : Finset (Fin 256)).fold max negInf f) (funext fun k => ?_)
  exact congrArg src (funext fun a => Fin.ext (by match a with | ⟨0, _⟩ => rfl | ⟨1, _⟩ => rfl | ⟨2, _⟩ => rfl))

/-- The sum over the lanes of a [64, 64, 256] array, at (t, m). -/
theorem sumLanes_apply (src : FVec Ideal S64x64x256 .f32) (h : S64x64x256.Reduces [2] S64x64) (hφ : FKind.Formats .f32)
    (hacc : (0x00000000#32 : BitVec 32) = FKind.add.neutral .f32 hφ) (t m : Fin 64) :
    multiReduction .add [2] S64x64 src 0x00000000#32 h hφ hacc (ix2 t m) = ∑ k : Fin 256, src (ix3 t m k) := by
  refine (Ideal.multiReduction_add_single src _ h hφ hacc (ix2 t m)).trans ?_
  refine Finset.sum_congr rfl fun k _ => ?_
  exact congrArg src (funext fun a => Fin.ext (by match a with | ⟨0, _⟩ => rfl | ⟨1, _⟩ => rfl | ⟨2, _⟩ => rfl))

/-- The sum over the rows of a [64, 64, 256] array, at (m, k). -/
theorem sumRows3_apply (src : FVec Ideal S64x64x256 .f32) (h : S64x64x256.Reduces [0] S64x256) (hφ : FKind.Formats .f32)
    (hacc : (0x00000000#32 : BitVec 32) = FKind.add.neutral .f32 hφ) (m : Fin 64) (k : Fin 256) :
    multiReduction .add [0] S64x256 src 0x00000000#32 h hφ hacc (ix2 m k) = ∑ t : Fin 64, src (ix3 t m k) := by
  refine (Ideal.multiReduction_add_single src _ h hφ hacc (ix2 m k)).trans ?_
  refine Finset.sum_congr rfl fun t _ => ?_
  exact congrArg src (funext fun a => Fin.ext (by match a with | ⟨0, _⟩ => rfl | ⟨1, _⟩ => rfl | ⟨2, _⟩ => rfl))

/-- The sum over the rows of a [64, 64] array, at m. -/
theorem sumRows2_apply (src : FVec Ideal S64x64 .f32) (h : S64x64.Reduces [0] S64) (hφ : FKind.Formats .f32)
    (hacc : (0x00000000#32 : BitVec 32) = FKind.add.neutral .f32 hφ) (m : Fin 64) :
    multiReduction .add [0] S64 src 0x00000000#32 h hφ hacc (ix1 m) = ∑ t : Fin 64, src (ix2 t m) := by
  refine (Ideal.multiReduction_add_single src _ h hφ hacc (ix1 m)).trans ?_
  refine Finset.sum_congr rfl fun t _ => ?_
  exact congrArg src (funext fun a => Fin.ext (by match a with | ⟨0, _⟩ => rfl | ⟨1, _⟩ => rfl))

/-- The sum over the columns of a [1, 64] array, at its one row. -/
theorem sumCols_apply (src : FVec Ideal S1x64 .f32) (h : S1x64.Reduces [1] S1) (hφ : FKind.Formats .f32)
    (hacc : (0x00000000#32 : BitVec 32) = FKind.add.neutral .f32 hφ) (u : Fin 1) :
    multiReduction .add [1] S1 src 0x00000000#32 h hφ hacc (ix1 u) = ∑ m : Fin 64, src (ix2 u m) := by
  refine (Ideal.multiReduction_add_single src _ h hφ hacc (ix1 u)).trans ?_
  refine Finset.sum_congr rfl fun m _ => ?_
  exact congrArg src (funext fun a => Fin.ext (by match a with | ⟨0, _⟩ => rfl | ⟨1, _⟩ => rfl))

/-- A [64, 64] array cast to [64, 64, 1] reads, at (t, m, u), the operand at (t, m). -/
theorem castKeep_apply {α : Type} (v : S64x64.Idx → α) (h : S64x64.ShapeCasts S64x64x1) (t m : Fin 64) (u : Fin 1) :
    shapeCast S64x64x1 v h (ix3 t m u) = v (ix2 t m) :=
  shapeCast_apply v h _ _ (by
    have hu : u.val = 0 := by omega
    rw [Shape.rowMajor_val_three, Shape.rowMajor_val_two]
    show t.val * 64 + m.val = (t.val * 64 + m.val) * 1 + u.val
    rw [hu, Nat.mul_one, Nat.add_zero])

/-- A [64, 64, 1] array broadcast to [64, 64, 256] reads, at (t, m, k), the operand's one lane at (t, m). -/
theorem bcastLanes_apply {α : Type} (v : S64x64x1.Idx → α) (h : S64x64x1.Broadcasts S64x64x256) (t m : Fin 64) (k : Fin 256) :
    broadcastTo S64x64x256 v h (ix3 t m k) = v (ix3 t m (0 : Fin 1)) := by
  refine broadcastTo_apply v h (ix3 t m k) (ix3 t m (0 : Fin 1)) fun ax => ?_
  match ax with
  | ⟨0, _⟩ =>
    show t.val = if (64 : Nat) = 1 then 0 else t.val
    rw [if_neg (by decide)]
  | ⟨1, _⟩ =>
    show m.val = if (64 : Nat) = 1 then 0 else m.val
    rw [if_neg (by decide)]
  | ⟨2, _⟩ => rfl

/-- The tile as the body reads it: the loaded block itself. -/
theorem tile_eq {F : FTy → Type} [FloatOps F] (x : Vec F S64x64x256 .f32) : k0_pay5 x = x := by
  unfold k0_pay5
  exact shapeCast_self x _

/-! ## The entropy update: the body's stages, each read at an index -/

/-- The lanes' maximum joined with -∞, as the body computes it. -/
def kMax (y : FVec Ideal S64x64x256 .f32) : FVec Ideal S64x64 .f32 :=
  maximumf (broadcast S64x64 (Scalar.ofBits (F := Ideal) .f32 0xFF800000#32))
    (multiReduction .maximumf [2] S64x64 y 0xFF800000#32 reduces_S64x64x256_S64x64 (.inl rfl) rfl)

/-- The tile shifted by its lanes' maximum, as the body computes it. -/
def kShift (y : FVec Ideal S64x64x256 .f32) : FVec Ideal S64x64x256 .f32 :=
  subf y (broadcastTo S64x64x256 (shapeCast S64x64x1 (kMax y) shapeCasts_S64x64_S64x64x1) broadcasts_S64x64x1_S64x64x256)

/-- log-softmax over the lanes, as the body computes it. -/
def kLsm (y : FVec Ideal S64x64x256 .f32) : FVec Ideal S64x64x256 .f32 :=
  subf (kShift y) (broadcastTo S64x64x256 (log (shapeCast S64x64x1
    (multiReduction .add [2] S64x64 (exp (kShift y)) 0x00000000#32 reduces_S64x64x256_S64x64 (.inl rfl) rfl)
    shapeCasts_S64x64_S64x64x1)) broadcasts_S64x64x1_S64x64x256)

/-- Σₖ exp(lsmₖ) · lsmₖ per (t, m), as the body computes it. -/
def kPlogp (y : FVec Ideal S64x64x256 .f32) : FVec Ideal S64x64 .f32 :=
  multiReduction .add [2] S64x64 (mulf (exp (kLsm y)) (kLsm y)) 0x00000000#32 reduces_S64x64x256_S64x64 (.inl rfl) rfl

/-- The tile's entropy sum as a [1, 1] block, as the body computes it. -/
def kEnt (y : FVec Ideal S64x64x256 .f32) : FVec Ideal S1x1 .f32 :=
  shapeCast S1x1 (multiReduction .add [1] S1 (shapeCast S1x64 (multiReduction .add [0] S64
    (subf (broadcast S64x64 (Scalar.ofBits (F := Ideal) .f32 0x00000000#32)) (kPlogp y)) 0x00000000#32 reduces_S64x64_S64 (.inl rfl) rfl)
    shapeCasts_S64_S1x64) 0x00000000#32 reduces_S1x64_S1 (.inl rfl) rfl) shapeCasts_S1_S1x1

/-- The entropy update is the accumulator plus that block. -/
theorem pay6_eq (x : Vec Ideal S64x64x256 .f32) (v : Vec Ideal S1x1 .f32) :
    k0_pay6 (F := Ideal) x v = shapeCast S1x1 (addf v (kEnt (k0_pay5 x))) shapeCasts_S1x1_S1x1 := rfl

/-- At (t, m) the body's maximum is the row's. -/
theorem kMax_apply (y : FVec Ideal S64x64x256 .f32) (t m : Fin 64) :
    kMax y (ix2 t m) = rowMax (fun k => y (ix3 t m k)) := by
  unfold kMax rowMax
  rw [maximumf_apply, broadcast_apply]
  exact congrArg (max negInf) (maxLanes_apply y _ _ _ t m)

/-- At (t, m, k) the body's shifted tile is the shifted row. -/
theorem kShift_apply (y : FVec Ideal S64x64x256 .f32) (t m : Fin 64) (k : Fin 256) :
    kShift y (ix3 t m k) = rowShift (fun k => y (ix3 t m k)) k := by
  refine congrArg (y (ix3 t m k) - ·) ?_
  refine (bcastLanes_apply _ _ t m k).trans ?_
  refine (castKeep_apply _ _ t m 0).trans ?_
  exact kMax_apply y t m

/-- At (t, m, k) the body's log-softmax is the row's. -/
theorem kLsm_apply (y : FVec Ideal S64x64x256 .f32) (t m : Fin 64) (k : Fin 256) :
    kLsm y (ix3 t m k) = rowLsm (fun k => y (ix3 t m k)) k := by
  have h1 : kShift y (ix3 t m k) = rowShift (fun k => y (ix3 t m k)) k := kShift_apply y t m k
  have h2 : broadcastTo S64x64x256 (log (shapeCast S64x64x1
      (multiReduction .add [2] S64x64 (exp (kShift y)) 0x00000000#32 reduces_S64x64x256_S64x64 (.inl rfl) rfl)
      shapeCasts_S64x64_S64x64x1)) broadcasts_S64x64x1_S64x64x256 (ix3 t m k)
      = Ideal.log (∑ k' : Fin 256, Ideal.exp (rowShift (fun k => y (ix3 t m k)) k')) := by
    refine (bcastLanes_apply _ _ t m k).trans ?_
    refine congrArg Ideal.log ?_
    refine (castKeep_apply _ _ t m 0).trans ?_
    refine (sumLanes_apply _ _ _ _ t m).trans ?_
    exact Finset.sum_congr rfl fun k' _ => congrArg Ideal.exp (kShift_apply y t m k')
  show kShift y (ix3 t m k) - _ = _
  rw [h1, h2]
  rfl

/-- At (t, m) the body's Σₖ exp(lsmₖ) · lsmₖ is the row's. -/
theorem kPlogp_apply (y : FVec Ideal S64x64x256 .f32) (t m : Fin 64) :
    kPlogp y (ix2 t m) = rowPlogp (fun k => y (ix3 t m k)) := by
  refine (sumLanes_apply _ _ _ _ t m).trans ?_
  refine Finset.sum_congr rfl fun k _ => ?_
  show Ideal.exp (kLsm y (ix3 t m k)) * kLsm y (ix3 t m k) = _
  rw [kLsm_apply]

/-- At its one index the body's block is the sum over the blocks and the tile's rows of minus the row's Σₖ exp(lsmₖ) · lsmₖ. -/
theorem kEnt_apply (y : FVec Ideal S64x64x256 .f32) (a b : Fin 1) :
    kEnt y (ix2 a b) = ∑ m : Fin 64, ∑ t : Fin 64, -(rowPlogp (fun k => y (ix3 t m k))) := by
  refine (shapeCast_a_1a_apply _ _ a b).trans ?_
  refine (sumCols_apply _ _ _ _ b).trans ?_
  refine Finset.sum_congr rfl fun m _ => ?_
  refine (shapeCast_a_1a_apply _ _ b m).trans ?_
  refine (sumRows2_apply _ _ _ _ m).trans ?_
  refine Finset.sum_congr rfl fun t _ => ?_
  show Ideal.ofBits .f32 0x00000000#32 - kPlogp y (ix2 t m) = _
  rw [Ideal.ofBits_zero_f32, zero_sub_ereal, kPlogp_apply]

/-! ## The resets, the store and the two updates -/

/-- The block the first point resets the entropy accumulator to is zero. -/
theorem resetEnt_apply (j : S1x1.Idx) : k0_pay3 (F := Ideal) j = 0 := by
  unfold k0_pay3
  rw [shapeCast_self]
  exact Ideal.ofBits_zero_f32

/-- The block the first point resets the block-sum accumulator to is zero. -/
theorem resetSum_apply (j : S64x256.Idx) : k0_pay4 (F := Ideal) j = 0 := by
  unfold k0_pay4
  rw [shapeCast_self]
  exact Ideal.ofBits_zero_f32

/-- The block-sum accumulator is stored as computed. -/
theorem storeSum_eq {F : FTy → Type} [FloatOps F] (v : FVec F S64x256 .f32) : k0_pay1 v = v := by
  unfold k0_pay1
  exact shapeCast_self v _

/-- The entropy accumulator after a point: what it held plus the tile's entropy sum. -/
theorem entUpdate_apply (x : Vec Ideal S64x64x256 .f32) (v : Vec Ideal S1x1 .f32) (j : S1x1.Idx) :
    k0_pay6 (F := Ideal) x v j = v j + tileEnt (fun t m k => x (ix3 t m k)) := by
  obtain ⟨a, b, rfl⟩ : ∃ (a b : Fin 1), j = ix2 a b := ⟨j 0, j 1, eq_ix2 j⟩
  rw [pay6_eq, shapeCast_self, tile_eq]
  exact congrArg (v (ix2 a b) + ·) (kEnt_apply x a b)

/-- The block-sum accumulator after a point, at (m, k): what it held plus the tile's column sum there. -/
theorem sumUpdate_apply (x : Vec Ideal S64x64x256 .f32) (v : Vec Ideal S64x256 .f32) (m : Fin 64) (k : Fin 256) :
    k0_pay7 (F := Ideal) x v (ix2 m k) = v (ix2 m k) + tileSum (fun t m k => x (ix3 t m k)) m k := by
  unfold k0_pay7
  rw [tile_eq]
  exact congrArg (v (ix2 m k) + ·) (sumRows3_apply x _ _ _ m k)

end Cert.KernelIdeal.PayAcc

end
-- ==== Proof.KPayClose.lean ====
/-
  The closing formula of the kernel body's last point, read at an index over the extended reals.
-/
import proofs.«161129_j472446403063_1_alg».proof.Proof.Gen.KernelIdeal.Skeleton
import proofs.«161129_j472446403063_1_alg».proof.Proof.Spec
import proofs.«161129_j472446403063_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.PayClose

open Cert.KernelIdeal Cert.KernelIdeal.Gen Cert.EntropyLoss

/-- The maximum over the lanes of row m, folded from -∞. -/
theorem laneMax_apply (x : FVec Ideal S64x256 .f32) (h : S64x256.Reduces [1] S64) (m : Fin 64) :
    multiReduction (F := Ideal) .maximumf [1] S64 x 0xFF800000#32 h (.inl rfl) rfl (ix1 m)
      = (Finset.univ : Finset (Fin 256)).fold max negInf (fun k => x (ix2 m k)) := by
  refine (Ideal.multiReduction_maximumf_single x _ h (.inl rfl) rfl (ix1 m)).trans ?_
  refine congrArg (fun f : Fin 256 → EReal => (Finset.univ : Finset (Fin 256)).fold max negInf f) ?_
  funext k
  exact congrArg x (funext fun a => Fin.ext (by match a with | ⟨0, _⟩ => rfl | ⟨1, _⟩ => rfl))

/-- The sum over the lanes of row m. -/
theorem laneSum_apply (x : FVec Ideal S64x256 .f32) (h : S64x256.Reduces [1] S64) (m : Fin 64) :
    multiReduction (F := Ideal) .add [1] S64 x 0x00000000#32 h (.inl rfl) rfl (ix1 m)
      = ∑ k : Fin 256, x (ix2 m k) := by
  refine (Ideal.multiReduction_add_single x _ h (.inl rfl) rfl (ix1 m)).trans ?_
  refine Finset.sum_congr rfl fun k _ => ?_
  exact congrArg x (funext fun a => Fin.ext (by match a with | ⟨0, _⟩ => rfl | ⟨1, _⟩ => rfl))

/-- The sum down the one column of a [64, 1] array. -/
theorem colSum_apply (z : FVec Ideal S64x1 .f32) (h : S64x1.Reduces [0] S1) (u : Fin 1) :
    multiReduction (F := Ideal) .add [0] S1 z 0x00000000#32 h (.inl rfl) rfl (ix1 u)
      = ∑ m : Fin 64, z (ix2 m u) := by
  refine (Ideal.multiReduction_add_single z _ h (.inl rfl) rfl (ix1 u)).trans ?_
  refine Finset.sum_congr rfl fun m _ => ?_
  exact congrArg z (funext fun a => Fin.ext (by match a with | ⟨0, _⟩ => rfl | ⟨1, _⟩ => rfl))

/-- A per-row value put back on the lanes: the [64] → [64, 1] cast followed by the [64, 1] → [64, 256] broadcast. -/
theorem keep_apply (y : FVec Ideal S64 .f32) (hc : S64.ShapeCasts S64x1) (hb : S64x1.Broadcasts S64x256)
    (m : Fin 64) (k : Fin 256) :
    broadcastTo S64x256 (shapeCast S64x1 y hc) hb (ix2 m k) = y (ix1 m) :=
  (Cert.Lib.Keepdims.broadcastTo_a1_ab_apply _ hb m k).trans (Cert.Lib.Keepdims.shapeCast_a_a1_apply y hc m 0)

/-- The f32 zero word is the extended real 0. -/
theorem zeroWord : (Scalar.ofBits (F := Ideal) .f32 0x00000000#32 : EReal) = 0 := Ideal.ofBits_zero_f32

/-- Row m of a [64, 256] array. -/
def rowOf (x : FVec Ideal S64x256 .f32) (m : Fin 64) : Fin 256 → EReal := fun k => x (ix2 m k)

/-- The block-sum accumulator divided by 4096, lane by lane. -/
def scaled (acc : Vec Ideal S64x256 .f32) : FVec Ideal S64x256 .f32 :=
  divf acc (broadcast S64x256 (Scalar.ofBits (F := Ideal) .f32 0x45800000#32))

theorem scaled_apply (acc : Vec Ideal S64x256 .f32) (m : Fin 64) (k : Fin 256) :
    scaled acc (ix2 m k) = Ideal.div (acc (ix2 m k)) w4096 := rfl

theorem rowOf_scaled (acc : Vec Ideal S64x256 .f32) (m : Fin 64) :
    rowOf (scaled acc) m = fun k => Ideal.div (acc (ix2 m k)) w4096 := rfl

/-- Each row's maximum, joined with -∞. -/
def rmax (x : FVec Ideal S64x256 .f32) : FVec Ideal S64 .f32 :=
  maximumf (broadcast S64 (Scalar.ofBits (F := Ideal) .f32 0xFF800000#32))
    (multiReduction (F := Ideal) .maximumf [1] S64 x 0xFF800000#32 reduces_S64x256_S64 (.inl rfl) rfl)

theorem rmax_apply (x : FVec Ideal S64x256 .f32) (m : Fin 64) : rmax x (ix1 m) = rowMax (rowOf x m) := by
  show max negInf (multiReduction (F := Ideal) .maximumf [1] S64 x 0xFF800000#32 reduces_S64x256_S64 (.inl rfl) rfl (ix1 m)) = _
  exact congrArg (max negInf) (laneMax_apply x reduces_S64x256_S64 m)

/-- Each row shifted by its maximum. -/
def shifted (x : FVec Ideal S64x256 .f32) : FVec Ideal S64x256 .f32 :=
  subf x (broadcastTo S64x256 (shapeCast S64x1 (rmax x) shapeCasts_S64_S64x1) broadcasts_S64x1_S64x256)

theorem shifted_apply (x : FVec Ideal S64x256 .f32) (m : Fin 64) (k : Fin 256) :
    shifted x (ix2 m k) = rowShift (rowOf x m) k := by
  show x (ix2 m k) - broadcastTo S64x256 (shapeCast S64x1 (rmax x) shapeCasts_S64_S64x1) broadcasts_S64x1_S64x256 (ix2 m k) = _
  exact congrArg (x (ix2 m k) - ·) ((keep_apply (rmax x) _ _ m k).trans (rmax_apply x m))

/-- The logarithm of each row's sum of exponentials, on the lanes. -/
def lse (x : FVec Ideal S64x256 .f32) : FVec Ideal S64x256 .f32 :=
  broadcastTo S64x256
    (log (shapeCast S64x1 (multiReduction (F := Ideal) .add [1] S64 (exp (shifted x)) 0x00000000#32 reduces_S64x256_S64 (.inl rfl) rfl)
      shapeCasts_S64_S64x1))
    broadcasts_S64x1_S64x256

theorem lse_apply (x : FVec Ideal S64x256 .f32) (m : Fin 64) (k : Fin 256) :
    lse x (ix2 m k) = Ideal.log (∑ k' : Fin 256, Ideal.exp (rowShift (rowOf x m) k')) := by
  refine (Cert.Lib.Keepdims.broadcastTo_a1_ab_apply _ broadcasts_S64x1_S64x256 m k).trans ?_
  show Ideal.log (shapeCast S64x1 (multiReduction (F := Ideal) .add [1] S64 (exp (shifted x)) 0x00000000#32 reduces_S64x256_S64 (.inl rfl) rfl)
      shapeCasts_S64_S64x1 (ix2 m (0 : Fin 1))) = _
  refine congrArg Ideal.log ?_
  refine (Cert.Lib.Keepdims.shapeCast_a_a1_apply _ shapeCasts_S64_S64x1 m 0).trans ?_
  refine (laneSum_apply (exp (shifted x)) reduces_S64x256_S64 m).trans ?_
  refine Finset.sum_congr rfl fun k' _ => ?_
  show Ideal.exp (shifted x (ix2 m k')) = _
  exact congrArg Ideal.exp (shifted_apply x m k')

/-- log-softmax of each row. -/
def lsm (x : FVec Ideal S64x256 .f32) : FVec Ideal S64x256 .f32 := subf (shifted x) (lse x)

theorem lsm_apply (x : FVec Ideal S64x256 .f32) (m : Fin 64) (k : Fin 256) :
    lsm x (ix2 m k) = rowLsm (rowOf x m) k := by
  show shifted x (ix2 m k) - lse x (ix2 m k) = _
  rw [shifted_apply, lse_apply]
  rfl

/-- Σₖ exp(lsm) · lsm of each row. -/
def plogp (x : FVec Ideal S64x256 .f32) : FVec Ideal S64 .f32 :=
  multiReduction (F := Ideal) .add [1] S64 (mulf (exp (lsm x)) (lsm x)) 0x00000000#32 reduces_S64x256_S64 (.inl rfl) rfl

theorem plogp_apply (x : FVec Ideal S64x256 .f32) (m : Fin 64) : plogp x (ix1 m) = rowPlogp (rowOf x m) := by
  refine (laneSum_apply (mulf (exp (lsm x)) (lsm x)) reduces_S64x256_S64 m).trans ?_
  refine Finset.sum_congr rfl fun k _ => ?_
  show Ideal.exp (lsm x (ix2 m k)) * lsm x (ix2 m k) = _
  rw [lsm_apply]

/-- Zero minus each row's Σ exp(lsm) · lsm, as a column. -/
def negCol (x : FVec Ideal S64x256 .f32) : FVec Ideal S64x1 .f32 :=
  subf (broadcast S64x1 (Scalar.ofBits (F := Ideal) .f32 0x00000000#32)) (shapeCast S64x1 (plogp x) shapeCasts_S64_S64x1)

theorem negCol_apply (x : FVec Ideal S64x256 .f32) (m : Fin 64) (u : Fin 1) :
    negCol x (ix2 m u) = -(rowPlogp (rowOf x m)) := by
  show (Scalar.ofBits (F := Ideal) .f32 0x00000000#32 : EReal) - shapeCast S64x1 (plogp x) shapeCasts_S64_S64x1 (ix2 m u) = _
  rw [zeroWord, Cert.Lib.Keepdims.shapeCast_a_a1_apply, plogp_apply, zero_sub_ereal]

/-- The column summed over the blocks, as a [1, 1] array. -/
def total (x : FVec Ideal S64x256 .f32) : FVec Ideal S1x1 .f32 :=
  shapeCast S1x1 (multiReduction (F := Ideal) .add [0] S1 (negCol x) 0x00000000#32 reduces_S64x1_S1 (.inl rfl) rfl) shapeCasts_S1_S1x1

theorem total_apply (x : FVec Ideal S64x256 .f32) (u v : Fin 1) :
    total x (ix2 u v) = ∑ m : Fin 64, -(rowPlogp (rowOf x m)) := by
  refine (Cert.Lib.Keepdims.shapeCast_a_a1_apply _ shapeCasts_S1_S1x1 u v).trans ?_
  refine (colSum_apply (negCol x) reduces_S64x1_S1 u).trans ?_
  exact Finset.sum_congr rfl fun m _ => negCol_apply x m u

/-- The payload is the closing arithmetic over these stages. -/
theorem pay_eq (acc : Vec Ideal S64x256 .f32) (e : Vec Ideal S1x1 .f32) :
    k0_pay2 (F := Ideal) acc e
      = addf (divf e (broadcast S1x1 (Scalar.ofBits (F := Ideal) .f32 0x48800000#32)))
          (mulf (broadcast S1x1 (Scalar.ofBits (F := Ideal) .f32 0x3F800000#32))
            (divf (subf (broadcast S1x1 (Scalar.ofBits (F := Ideal) .f32 0x00000000#32)) (total (scaled acc)))
              (broadcast S1x1 (Scalar.ofBits (F := Ideal) .f32 0x42800000#32)))) := rfl

/-- From the block-sum accumulator `acc` and the entropy accumulator `e`: e / 262144 + 1 · ((−Σ_m −rowPlogp (acc m · / 4096)) / 64). -/
theorem closing_apply (acc : Vec Ideal S64x256 .f32) (e : Vec Ideal S1x1 .f32) (j : S1x1.Idx) :
    k0_pay2 (F := Ideal) acc e j
      = Ideal.div (e j) w262144
        + wOne * Ideal.div (-(∑ m : Fin 64, -(rowPlogp (fun k => Ideal.div (acc (ix2 m k)) w4096)))) w64 := by
  obtain ⟨u, v, rfl⟩ : ∃ (u v : Fin 1), j = ix2 u v := ⟨j 0, j 1, eq_ix2 j⟩
  rw [pay_eq]
  show Ideal.div (e (ix2 u v)) w262144
      + wOne * Ideal.div ((Scalar.ofBits (F := Ideal) .f32 0x00000000#32 : EReal) - total (scaled acc) (ix2 u v)) w64 = _
  rw [zeroWord, total_apply, zero_sub_ereal]
  rfl

end Cert.KernelIdeal.PayClose

end
-- ==== Proof.KValue.lean ====
/-
  What the tiled kernel's result array holds after the run, over the extended reals.

  The reshaped input is walked in 64 tiles of 64 rows; tile `t`'s row `r` is row 64·t + r of the input. After point
  `n` the entropy accumulator holds the sum over the tiles 0..n of their entropy sums, and the block-sum accumulator at
  (b, k) the sum over those tiles of their column sums: by induction on the point, the first point starting both from
  zero. At the last point the result block is the closing formula of the two finished accumulators, which is the loss
  of the input (`loss_tiled`). That block is the whole [1, 1] result array, written back once, and the final reshape to a
  scalar reads its one entry.
-/
import proofs.«161129_j472446403063_1_alg».proof.Proof.Gen.KernelIdeal.Frame
import proofs.«161129_j472446403063_1_alg».proof.Proof.KPieces
import proofs.«161129_j472446403063_1_alg».proof.Proof.KPayAcc
import proofs.«161129_j472446403063_1_alg».proof.Proof.KPayClose
import proofs.«161129_j472446403063_1_alg».proof.Proof.Spec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.EntropyLoss

variable (m : (ℓ : Loc nD τ sig) → Buf (Elt Ideal) ℓ) (ρ : Dev nD → PrngReg)

/-- The reshaped input as the region finds it. -/
abbrev xarr (c : Dev nD) : Vec Ideal S4096x64x256 .f32 := V m c main_v0

/-- The tile the window holds at point `t`. -/
abbrev xblk (c : Dev nD) (t : Fin cfg0.N) : Vec Ideal S64x64x256 .f32 := iblk m c 0 t

/-- The input read as rows × blocks × lanes. -/
def rowsK (c : Dev nD) (T : Fin 4096) (b : Fin 64) (k : Fin 256) : EReal := xarr m c (ix3 T b k)

/-- The input window's block index is the point itself on the row axis and zero on the others. -/
theorem idx_facts : ∀ t : Fin cfg0.N, win0_0.index t (0 : Fin 3) = t.val ∧ win0_0.index t (1 : Fin 3) = 0
    ∧ win0_0.index t (2 : Fin 3) = 0 :=
  (by decide +kernel : ∀ t : Fin grid0.N, _)

/-- Tile `t` at (r, b, k) is the input at row 64·t + r. -/
theorem xblk_apply (c : Dev nD) (t : Fin cfg0.N) (r b : Fin 64) (k : Fin 256) (T : Fin 4096)
    (hT : T.val = 64 * t.val + r.val) : xblk m c t (ix3 r b k) = rowsK m c T b k := by
  obtain ⟨e0, e1, e2⟩ := idx_facts t
  show iblk m c 0 t (ix3 r b k) = V m c main_v0 (ix3 T b k)
  unfold iblk
  rw [View.read_apply]
  show V m c main_v0 (((cfg0.win 0).blk t).view.emb (ix3 r b k)) = V m c main_v0 (ix3 T b k)
  congr 1
  funext a
  apply Fin.ext
  match a with
  | ⟨0, _⟩ => show win0_0.index t (0 : Fin 3) * 64 + 1 * r.val = T.val; omega
  | ⟨1, _⟩ => show win0_0.index t (1 : Fin 3) * 64 + 1 * b.val = b.val; omega
  | ⟨2, _⟩ => show win0_0.index t (2 : Fin 3) * 256 + 1 * k.val = k.val; omega

/-! ## The accumulators, point by point -/

/-- After the first point: both accumulators at zero plus the first tile's contribution. -/
theorem acc_first (c : Dev nD) (t : Fin cfg0.N) (h0 : t.val % 64 = 0) (h1 : ¬t.val % 64 = 63) :
    (outsAt0 m c t.val t.isLt).2.1 = k0_pay6 (xblk m c t) (k0_pay3 (F := Ideal))
    ∧ (outsAt0 m c t.val t.isLt).2.2 = k0_pay1 (k0_pay7 (xblk m c t) (k0_pay4 (F := Ideal))) := by
  rw [outsAt0_A m c t h0 h1]
  dsimp only
  exact ⟨Pieces.ent_first c (grid0.coords t) (ms0_0 t) (hs0_0 t) (ms0_1 t) (hs0_1 t) scM0_0 (Memref.isWhole_whole _) scM0_1
      (Memref.isWhole_whole _) ((hcond0_0 t).mpr h0) (fun h => h1 ((hcond0_1 t).mp h)) (iblk m c 0 t),
    Pieces.sum_first c (grid0.coords t) (ms0_0 t) (hs0_0 t) (ms0_1 t) (hs0_1 t) scM0_0 (Memref.isWhole_whole _) scM0_1
      (Memref.isWhole_whole _) ((hcond0_0 t).mpr h0) (fun h => h1 ((hcond0_1 t).mp h)) (iblk m c 0 t)⟩

/-- After any later point: both accumulators at what the point before left plus this tile's contribution. -/
theorem acc_next (c : Dev nD) (t : Fin cfg0.N) (h0 : ¬t.val % 64 = 0) :
    (outsAt0 m c t.val t.isLt).2.1
        = k0_pay6 (xblk m c t) (outsAt0 m c (t.val - 1) (Nat.lt_of_le_of_lt (Nat.sub_le _ _) t.isLt)).2.1
    ∧ (outsAt0 m c t.val t.isLt).2.2
        = k0_pay1 (k0_pay7 (xblk m c t) (outsAt0 m c (t.val - 1) (Nat.lt_of_le_of_lt (Nat.sub_le _ _) t.isLt)).2.2) := by
  by_cases h1 : t.val % 64 = 63
  · rw [outsAt0_C m c t h0 h1]
    dsimp only
    exact ⟨Pieces.ent_last c (grid0.coords t) (ms0_0 t) (hs0_0 t) (ms0_1 t) (hs0_1 t) scM0_0 (Memref.isWhole_whole _) scM0_1
        (Memref.isWhole_whole _) (fun h => h0 ((hcond0_0 t).mp h)) ((hcond0_1 t).mpr h1) (iblk m c 0 t)
        (outsAt0 m c (t.val - 1) (Nat.lt_of_le_of_lt (Nat.sub_le _ _) t.isLt)).2.1
        (outsAt0 m c (t.val - 1) (Nat.lt_of_le_of_lt (Nat.sub_le _ _) t.isLt)).2.2,
      Pieces.sum_last c (grid0.coords t) (ms0_0 t) (hs0_0 t) (ms0_1 t) (hs0_1 t) scM0_0 (Memref.isWhole_whole _) scM0_1
        (Memref.isWhole_whole _) (fun h => h0 ((hcond0_0 t).mp h)) ((hcond0_1 t).mpr h1) (iblk m c 0 t)
        (outsAt0 m c (t.val - 1) (Nat.lt_of_le_of_lt (Nat.sub_le _ _) t.isLt)).2.1
        (outsAt0 m c (t.val - 1) (Nat.lt_of_le_of_lt (Nat.sub_le _ _) t.isLt)).2.2⟩
  · rw [outsAt0_B m c t h0 h1]
    dsimp only
    exact ⟨Pieces.ent_mid c (grid0.coords t) (ms0_0 t) (hs0_0 t) (ms0_1 t) (hs0_1 t) scM0_0 (Memref.isWhole_whole _) scM0_1
        (Memref.isWhole_whole _) (fun h => h0 ((hcond0_0 t).mp h)) (fun h => h1 ((hcond0_1 t).mp h)) (iblk m c 0 t)
        (outsAt0 m c (t.val - 1) (Nat.lt_of_le_of_lt (Nat.sub_le _ _) t.isLt)).2.1
        (outsAt0 m c (t.val - 1) (Nat.lt_of_le_of_lt (Nat.sub_le _ _) t.isLt)).2.2,
      Pieces.sum_mid c (grid0.coords t) (ms0_0 t) (hs0_0 t) (ms0_1 t) (hs0_1 t) scM0_0 (Memref.isWhole_whole _) scM0_1
        (Memref.isWhole_whole _) (fun h => h0 ((hcond0_0 t).mp h)) (fun h => h1 ((hcond0_1 t).mp h)) (iblk m c 0 t)
        (outsAt0 m c (t.val - 1) (Nat.lt_of_le_of_lt (Nat.sub_le _ _) t.isLt)).2.1
        (outsAt0 m c (t.val - 1) (Nat.lt_of_le_of_lt (Nat.sub_le _ _) t.isLt)).2.2⟩

/-- At the last point the result block is the closing formula of the two accumulators as that point leaves them. -/
theorem out_last (c : Dev nD) (t : Fin cfg0.N) (h0 : ¬t.val % 64 = 0) (h1 : t.val % 64 = 63) :
    (outsAt0 m c t.val t.isLt).1
      = k0_pay2 (outsAt0 m c t.val t.isLt).2.2 (outsAt0 m c t.val t.isLt).2.1 := by
  rw [outsAt0_C m c t h0 h1]
  dsimp only
  rw [Pieces.out_last c (grid0.coords t) (ms0_0 t) (hs0_0 t) (ms0_1 t) (hs0_1 t) scM0_0 (Memref.isWhole_whole _) scM0_1
      (Memref.isWhole_whole _) (fun h => h0 ((hcond0_0 t).mp h)) ((hcond0_1 t).mpr h1) (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2,
    Pieces.ent_last c (grid0.coords t) (ms0_0 t) (hs0_0 t) (ms0_1 t) (hs0_1 t) scM0_0 (Memref.isWhole_whole _) scM0_1
      (Memref.isWhole_whole _) (fun h => h0 ((hcond0_0 t).mp h)) ((hcond0_1 t).mpr h1) (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2,
    Pieces.sum_last c (grid0.coords t) (ms0_0 t) (hs0_0 t) (ms0_1 t) (hs0_1 t) scM0_0 (Memref.isWhole_whole _) scM0_1
      (Memref.isWhole_whole _) (fun h => h0 ((hcond0_0 t).mp h)) ((hcond0_1 t).mpr h1) (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2]

/-- Tile `n`'s entropy sum (zero past the grid). -/
def entOf (c : Dev nD) (n : ℕ) : EReal :=
  if h : n < cfg0.N then tileEnt (fun r b k => xblk m c ⟨n, h⟩ (ix3 r b k)) else 0

/-- Tile `n`'s column sum at (b, k) (zero past the grid). -/
def sumOf (c : Dev nD) (n : ℕ) (b : Fin 64) (k : Fin 256) : EReal :=
  if h : n < cfg0.N then tileSum (fun r b k => xblk m c ⟨n, h⟩ (ix3 r b k)) b k else 0

/-- THE INVARIANT: after point `n` the accumulators hold the sums over the tiles 0..n. -/
theorem acc_inv (c : Dev nD) : ∀ (n : ℕ) (h : n < cfg0.N),
    (∀ j : S1x1.Idx, (outsAt0 m c n h).2.1 j = ∑ i ∈ Finset.range (n + 1), entOf m c i)
    ∧ (∀ (b : Fin 64) (k : Fin 256), (outsAt0 m c n h).2.2 (ix2 b k) = ∑ i ∈ Finset.range (n + 1), sumOf m c i b k)
  | 0, h => by
    obtain ⟨e1, e2⟩ := acc_first m c ⟨0, h⟩ (Nat.zero_mod _) (by dsimp only; omega)
    refine ⟨fun j => ?_, fun b k => ?_⟩
    · show (outsAt0 m c (⟨0, h⟩ : Fin cfg0.N).val (⟨0, h⟩ : Fin cfg0.N).isLt).2.1 j = _
      rw [e1, PayAcc.entUpdate_apply, PayAcc.resetEnt_apply, zero_add, Finset.sum_range_one]
      unfold entOf
      rw [dif_pos h]
    · show (outsAt0 m c (⟨0, h⟩ : Fin cfg0.N).val (⟨0, h⟩ : Fin cfg0.N).isLt).2.2 (ix2 b k) = _
      rw [e2, PayAcc.storeSum_eq, PayAcc.sumUpdate_apply, PayAcc.resetSum_apply, zero_add, Finset.sum_range_one]
      unfold sumOf
      rw [dif_pos h]
  | n + 1, h => by
    obtain ⟨ih1, ih2⟩ := acc_inv c n (Nat.lt_of_succ_lt h)
    obtain ⟨e1, e2⟩ := acc_next m c ⟨n + 1, h⟩ (by dsimp only; have hN : cfg0.N = 64 := N_0; omega)
    refine ⟨fun j => ?_, fun b k => ?_⟩
    · show (outsAt0 m c (⟨n + 1, h⟩ : Fin cfg0.N).val (⟨n + 1, h⟩ : Fin cfg0.N).isLt).2.1 j = _
      rw [e1, PayAcc.entUpdate_apply]
      show (outsAt0 m c n _).2.1 j + _ = _
      rw [ih1 j, Finset.sum_range_succ _ (n + 1)]
      congr 1
      unfold entOf
      rw [dif_pos h]
    · show (outsAt0 m c (⟨n + 1, h⟩ : Fin cfg0.N).val (⟨n + 1, h⟩ : Fin cfg0.N).isLt).2.2 (ix2 b k) = _
      rw [e2, PayAcc.storeSum_eq, PayAcc.sumUpdate_apply]
      show (outsAt0 m c n _).2.2 (ix2 b k) + _ = _
      rw [ih2 b k, Finset.sum_range_succ _ (n + 1)]
      congr 1
      unfold sumOf
      rw [dif_pos h]

/-- The sums over the points of the grid are the sums over the 64 tiles of the input's rows. -/
theorem sum_entOf (c : Dev nD) :
    ∑ i ∈ Finset.range 64, entOf m c i = ∑ i : Fin 64, tileEnt (fun r b k => rowsK m c (tileRow i r) b k) := by
  rw [Finset.sum_range]
  refine Finset.sum_congr rfl fun i _ => ?_
  have hN : cfg0.N = 64 := N_0
  have hi : i.val < cfg0.N := by have := i.isLt; omega
  unfold entOf
  rw [dif_pos hi]
  unfold tileEnt
  refine Finset.sum_congr rfl fun b _ => Finset.sum_congr rfl fun r _ => ?_
  refine congrArg (fun f => -(rowPlogp f)) (funext fun k => ?_)
  exact xblk_apply m c ⟨i.val, hi⟩ r b k (tileRow i r) rfl

theorem sum_sumOf (c : Dev nD) (b : Fin 64) (k : Fin 256) :
    ∑ i ∈ Finset.range 64, sumOf m c i b k = ∑ i : Fin 64, tileSum (fun r b k => rowsK m c (tileRow i r) b k) b k := by
  rw [Finset.sum_range]
  refine Finset.sum_congr rfl fun i _ => ?_
  have hN : cfg0.N = 64 := N_0
  have hi : i.val < cfg0.N := by have := i.isLt; omega
  unfold sumOf
  rw [dif_pos hi]
  unfold tileSum
  refine Finset.sum_congr rfl fun r _ => ?_
  exact xblk_apply m c ⟨i.val, hi⟩ r b k (tileRow i r) rfl

/-- THE RESULT BLOCK at the last point is the loss of the input, at its one index. -/
theorem out_last_apply (c : Dev nD) (t : Fin cfg0.N) (h1 : t.val % 64 = 63) (j : S1x1.Idx) :
    (outsAt0 m c t.val t.isLt).1 j = loss (rowsK m c) := by
  have hN : cfg0.N = 64 := N_0
  have ht : t.val = 63 := by have := t.isLt; omega
  obtain ⟨i1, i2⟩ := acc_inv m c t.val t.isLt
  rw [out_last m c t (by omega) h1, PayClose.closing_apply, i1 j]
  simp only [i2]
  rw [ht]
  show Ideal.div (∑ i ∈ Finset.range 64, entOf m c i) w262144 + wOne * Ideal.div (-(∑ b : Fin 64, -(rowPlogp (fun k =>
    Ideal.div (∑ i ∈ Finset.range 64, sumOf m c i b k) w4096)))) w64 = _
  rw [sum_entOf]
  simp only [sum_sumOf]
  exact loss_tiled (rowsK m c)

/-! ## The result array, and the scalar the program returns -/

/-- The [1, 1] result array after the run: the loss at its one entry. -/
abbrev result (c : Dev nD) : Buf (Elt Ideal) ((c : Thread nD τ).loc main_v1) := fun _ => loss (rowsK m c)

/-- The one write-back, at the last point, writes it. -/
theorem flushed_eq (c : Dev nD) (t : Fin cfg0.N) (hf : (cfg0.win 1).flush t = true) :
    (dats m 0 c).flushed 1 t = ((cfg0.win 1).blk t).view.read (Elt Ideal) (result m c) := by
  have h1 : t.val % 64 = 63 := (flush0_1 t).mp hf
  show (cfg0.win 1).cut (grid0.coords t) ((dats m 0 c).after 1 t) = _
  rw [after0_1]
  funext y
  rw [View.read_apply]
  exact out_last_apply m c t h1 y

/-- The last point of the grid. -/
def tLast : Fin cfg0.N := ⟨63, by rw [show cfg0.N = 64 from N_0]; decide⟩

/-- So the result array ends holding the loss. -/
theorem final_o (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v1).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

/-- The reshape before the region: the array the window reads is the argument reshaped to rows × blocks × lanes. -/
theorem xarr_eq (c : Dev nD) :
    xarr m c = shapeCast S4096x64x256 (m ((c : Thread nD τ).loc main_arg0)) shapeCasts_S4096x16384_S4096x64x256 := by
  show StableHlo.after hostOps0 (fun b => m (c, b)) (Proc.devRef .tc main_v0) = _
  after_results
  rfl

/-- The scalar the program returns: the reshape of the result array. -/
theorem tail_eq (c : Dev nD) :
    Pipeline.afterTail₀ cfgs (dats m) 0 (V0 m) [hostOps1] c main_v2 = fun _ => loss (rowsK m c) := by
  unfold Pipeline.afterTail₀
  show StableHlo.after hostOps1 _ (Proc.devRef .tc main_v2) = _
  after_results
  rw [(Pipeline.withArrays_arr spec0 launch0.win.arr_inj c _ _ 1).trans (final_o m c)]
  rfl

/-- THE RUN, READ: the returned scalar is the loss of the input rows, and the argument is unchanged. -/
theorem run : θ_run defs (onTc (τ := τ) (main (F := Ideal))) ⟨m, fun _ => 0, ρ⟩ fun r => ∀ c : Dev nD,
      r.2.mem ((c : Thread nD τ).loc main_v2) = (fun _ => loss (rowsK m c))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference program's run, read back in four stretches.

  The program is a straight line of 58 host operations. Read as one term against its stages, the comparison is too deep;
  cut into four stretches — the reshape with the first log-softmax; the entropy mean and the batch mean; the second
  log-softmax; the closing arithmetic — each stretch's results are its stages of the values it is handed, and the
  stretches compose: every buffer is written once, so a later stretch finds an earlier one's results in place.
-/
import proofs.«161129_j472446403063_1_alg».proof.Proof.RefRunP
import proofs.«161129_j472446403063_1_alg».proof.Proof.RefReadP
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Contents carried to a buffer's own type and back are the contents. -/
theorem ofBuf_toBuf {Val : EltTy → Type} {T : BufTy} (x : TRef sig T) (v : T.Contents Val) : x.ofBuf (x.toBuf v) = v := by
  obtain ⟨r, rfl, _, _⟩ := x
  rfl

/-- The four stretches of the operation list. -/
def stretch1 : List (HloOp τ sig (Elt F)) := (ops (F := F)).take 16
def stretch2 : List (HloOp τ sig (Elt F)) := ((ops (F := F)).drop 16).take 14
def stretch3 : List (HloOp τ sig (Elt F)) := ((ops (F := F)).drop 30).take 15
def stretch4 : List (HloOp τ sig (Elt F)) := (ops (F := F)).drop 45

theorem ops_split : (ops (F := F)) = stretch1 ++ (stretch2 ++ (stretch3 ++ stretch4)) := by
  unfold stretch1 stretch2 stretch3 stretch4
  simp only [ops, List.take_succ_cons, List.take_zero, List.drop_succ_cons, List.drop_zero, List.cons_append, List.nil_append]

/-- The reshape and the first log-softmax: the reshaped input and its log-softmax, the argument kept. -/
theorem stretch1_eq (V : Valuation τ sig (Elt F)) :
    after (stretch1 (F := F)) V (Proc.devRef .tc main_v1) = val_main_v1 (F := F) (V (Proc.devRef .tc main_arg0))
    ∧ after (stretch1 (F := F)) V (Proc.devRef .tc main_v0) = val_main_v0 (F := F) (V (Proc.devRef .tc main_arg0))
    ∧ after (stretch1 (F := F)) V (Proc.devRef .tc main_arg0) = V (Proc.devRef .tc main_arg0) := by
  refine ⟨?_, ?_, ?_⟩
  · unfold stretch1
    simp only [ops, List.take_succ_cons, List.take_zero]
    after_results_simp
    simp only [ofBuf_toBuf]
    simp only [val_main_v1, val_main_call0_v10, val_main_call0_v9, val_main_call0_v8, val_main_call0_v7, val_main_call0_cst_1,
      val_main_call0_v6, val_main_call0_v5, val_main_call0_v4, val_main_call0_v3, val_main_call0_v2, val_main_call0_v1,
      val_main_call0_cst_0, val_main_call0_v0, val_main_call0_cst, val_main_v0]
    rfl
  · unfold stretch1
    simp only [ops, List.take_succ_cons, List.take_zero]
    after_results_simp
    rfl
  · unfold stretch1
    simp only [ops, List.take_succ_cons, List.take_zero]
    after_results_simp

/-- The entropy mean and the batch mean, from the reshaped input and its log-softmax. -/
theorem stretch2_eq (V : Valuation τ sig (Elt F)) (x0 : (⟨S4096x16384, .f32⟩ : BufTy).Contents (Elt F))
    (h0 : V (Proc.devRef .tc main_v0) = val_main_v0 (F := F) x0) (h1 : V (Proc.devRef .tc main_v1) = val_main_v1 (F := F) x0) :
    after (stretch2 (F := F)) V (Proc.devRef .tc main_v7) = val_main_v7 (F := F) x0
    ∧ after (stretch2 (F := F)) V (Proc.devRef .tc main_v10) = val_main_v10 (F := F) x0
    ∧ after (stretch2 (F := F)) V (Proc.devRef .tc main_arg0) = V (Proc.devRef .tc main_arg0) := by
  refine ⟨?_, ?_, ?_⟩
  · unfold stretch2
    simp only [ops, List.take_succ_cons, List.take_zero, List.drop_succ_cons, List.drop_zero]
    after_results_simp
    rw [h1]
    simp only [val_main_v7, val_main_cst_1, val_main_v6, val_main_cst_0, val_main_v5, val_main_v4, val_main_cst, val_main_v3, val_main_v2]
  · unfold stretch2
    simp only [ops, List.take_succ_cons, List.take_zero, List.drop_succ_cons, List.drop_zero]
    after_results_simp
    rw [h0]
    simp only [val_main_v10, val_main_v9, val_main_cst_3, val_main_v8, val_main_cst_2]
  · unfold stretch2
    simp only [ops, List.take_succ_cons, List.take_zero, List.drop_succ_cons, List.drop_zero]
    after_results_simp

/-- The second log-softmax, of the batch mean; the entropy mean and the argument kept. -/
theorem stretch3_eq (V : Valuation τ sig (Elt F)) (x0 : (⟨S4096x16384, .f32⟩ : BufTy).Contents (Elt F))
    (h10 : V (Proc.devRef .tc main_v10) = val_main_v10 (F := F) x0) :
    after (stretch3 (F := F)) V (Proc.devRef .tc main_v11) = val_main_v11 (F := F) x0
    ∧ after (stretch3 (F := F)) V (Proc.devRef .tc main_v7) = V (Proc.devRef .tc main_v7)
    ∧ after (stretch3 (F := F)) V (Proc.devRef .tc main_arg0) = V (Proc.devRef .tc main_arg0) := by
  refine ⟨?_, ?_, ?_⟩
  · unfold stretch3
    simp only [ops, List.take_succ_cons, List.take_zero, List.drop_succ_cons, List.drop_zero]
    after_results_simp
    simp only [ofBuf_toBuf]
    rw [h10]
    simp only [val_main_v11, val_main_call1_v10, val_main_call1_v9, val_main_call1_v8, val_main_call1_v7, val_main_call1_cst_1,
      val_main_call1_v6, val_main_call1_v5, val_main_call1_v4, val_main_call1_v3, val_main_call1_v2, val_main_call1_v1,
      val_main_call1_cst_0, val_main_call1_v0, val_main_call1_cst]
    rfl
  · unfold stretch3
    simp only [ops, List.take_succ_cons, List.take_zero, List.drop_succ_cons, List.drop_zero]
    after_results_simp
  · unfold stretch3
    simp only [ops, List.take_succ_cons, List.take_zero, List.drop_succ_cons, List.drop_zero]
    after_results_simp

/-- The closing arithmetic, from the second log-softmax and the entropy mean. -/
theorem stretch4_eq (V : Valuation τ sig (Elt F)) (x0 : (⟨S4096x16384, .f32⟩ : BufTy).Contents (Elt F))
    (h11 : V (Proc.devRef .tc main_v11) = val_main_v11 (F := F) x0) (h7 : V (Proc.devRef .tc main_v7) = val_main_v7 (F := F) x0) :
    after (stretch4 (F := F)) V (Proc.devRef .tc main_v20) = val_main_v20 (F := F) x0
    ∧ after (stretch4 (F := F)) V (Proc.devRef .tc main_arg0) = V (Proc.devRef .tc main_arg0) := by
  refine ⟨?_, ?_⟩
  · unfold stretch4
    simp only [ops, List.drop_succ_cons, List.drop_zero]
    after_results_simp
    rw [h11, h7]
    simp only [val_main_v20, val_main_v19, val_main_cst_7, val_main_v18, val_main_cst_6, val_main_v17, val_main_v16, val_main_cst_5,
      val_main_v15, val_main_v14, val_main_cst_4, val_main_v13, val_main_v12]
  · unfold stretch4
    simp only [ops, List.drop_succ_cons, List.drop_zero]
    after_results_simp

/-- The whole line: the result is the last stage of the argument, and the argument is kept. -/
theorem after_ops (V : Valuation τ sig (Elt F)) :
    after (ops (F := F)) V (Proc.devRef .tc main_v20) = val_main_v20 (F := F) (V (Proc.devRef .tc main_arg0))
    ∧ after (ops (F := F)) V (Proc.devRef .tc main_arg0) = V (Proc.devRef .tc main_arg0) := by
  rw [ops_split, StableHlo.after_append, StableHlo.after_append, StableHlo.after_append]
  obtain ⟨a1, a0, aa⟩ := stretch1_eq (F := F) V
  obtain ⟨b7, b10, ba⟩ := stretch2_eq (F := F) (after stretch1 V) (V (Proc.devRef .tc main_arg0)) a0 a1
  obtain ⟨c11, c7, ca⟩ := stretch3_eq (F := F) (after stretch2 (after stretch1 V)) (V (Proc.devRef .tc main_arg0)) b10
  obtain ⟨d20, da⟩ := stretch4_eq (F := F) (after stretch3 (after stretch2 (after stretch1 V))) (V (Proc.devRef .tc main_arg0)) c11 (c7.trans b7)
  exact ⟨d20, da.trans (ca.trans (ba.trans aa))⟩

/-- On every device, from any memory with zero counters: every weakly fair execution of the reference terminates with
    its result at the last stage of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = val_main_v20 (F := F) (m ((c.tc : Thread nD τ).loc main_arg0))
      ∧ r.2.mem ((c.tc : Thread nD τ).loc main_arg0) = m ((c.tc : Thread nD τ).loc main_arg0) :=
  (θ_run defs _ _).mono (fun _ h c =>
      ⟨(h c main_v20).trans (after_ops (F := F) (launchContents m c)).1, (h c main_arg0).trans (after_ops (F := F) (launchContents m c)).2⟩)
    (run_after m ρ)

end Cert.ReferenceIdeal.HandRun

end
-- ==== Proof.RefValue.lean ====
/-
  The reference program's result, stage by stage, is the loss of the input read as rows × blocks × lanes.
-/
import proofs.«161129_j472446403063_1_alg».proof.Proof.RefReadP
import proofs.«161129_j472446403063_1_alg».proof.Proof.Spec
import Idealize.ShloMosaic.Lib.ValueIdx
import Idealize.ShloMosaic.PureOps.Ideal.Laws
import Idealize.ShloMosaic.PureOps.Reduce

noncomputable section

open scoped BigOperators
open Idealize.ShloMosaic Idealize.ShloMosaic.ValueIdx

namespace Cert.ReferenceIdeal.RefValue

open Cert.ReferenceIdeal Cert.ReferenceIdeal.Gen Cert.ReferenceIdeal.ReadP Cert.EntropyLoss

/-- The input read as 4096 rows × 64 blocks × 256 lanes: the reference's reshape at (T, m, k). -/
def rows (x0 : (⟨S4096x16384, .f32⟩ : BufTy).Contents (Elt Ideal)) (T : Fin 4096) (m : Fin 64) (k : Fin 256) : EReal :=
  val_main_v0 (F := Ideal) x0 (ix3 T m k)

/-- The type of the reference's input. -/
abbrev X0 : Type := (⟨S4096x16384, .f32⟩ : BufTy).Contents (Elt Ideal)

/-- The lane axis of the 4096 × 64 × 256 array reduces onto the 4096 × 64 one, and that of the 64 × 256 array onto the 64 one. -/
theorem reduces_c0 : S4096x64x256.Reduces [2] S4096x64 := by decide
theorem reduces_c1 : S64x256.Reduces [1] S64 := by decide

/-- The zero word is the extended real 0. -/
theorem zero_word : FloatOps.ofBits (F := Ideal) .f32 0x00000000#32 = (0 : EReal) := Ideal.ofBits_zero_f32

/-! ## The composed index functions are the coordinates -/

theorem i34 (T : Fin 4096) (m : Fin 64) (k : Fin 256) :
    idx_main_call0_v3 (idx_main_call0_v4 (ix3 T m k)) = ix2 T m := by
  funext a; match a with | ⟨0, _⟩ => rfl | ⟨1, _⟩ => rfl
theorem i7 (T : Fin 4096) (m : Fin 64) (k : Fin 256) : idx_main_call0_v7 (ix2 T m) k = ix3 T m k := by
  funext a; match a with | ⟨0, _⟩ => rfl | ⟨1, _⟩ => rfl | ⟨2, _⟩ => rfl
theorem i810 (T : Fin 4096) (m : Fin 64) (k : Fin 256) :
    idx_main_call0_v8 (idx_main_call0_v10 (ix3 T m k)) = ix2 T m := by
  funext a; match a with | ⟨0, _⟩ => rfl | ⟨1, _⟩ => rfl
theorem i4 (T : Fin 4096) (m : Fin 64) (k : Fin 256) : idx_main_v4 (ix2 T m) k = ix3 T m k := by
  funext a; match a with | ⟨0, _⟩ => rfl | ⟨1, _⟩ => rfl | ⟨2, _⟩ => rfl
theorem i8 (T : Fin 4096) (m : Fin 64) (k : Fin 256) : idx_main_v8 (ix2 m k) T = ix3 T m k := by
  funext a; match a with | ⟨0, _⟩ => rfl | ⟨1, _⟩ => rfl | ⟨2, _⟩ => rfl
theorem j34 (m : Fin 64) (k : Fin 256) : idx_main_call1_v3 (idx_main_call1_v4 (ix2 m k)) = ix1 m := by
  funext a; match a with | ⟨0, _⟩ => rfl
theorem j7 (m : Fin 64) (k : Fin 256) : idx_main_call1_v7 (ix1 m) k = ix2 m k := by
  funext a; match a with | ⟨0, _⟩ => rfl | ⟨1, _⟩ => rfl
theorem j810 (m : Fin 64) (k : Fin 256) : idx_main_call1_v8 (idx_main_call1_v10 (ix2 m k)) = ix1 m := by
  funext a; match a with | ⟨0, _⟩ => rfl
theorem j14 (m : Fin 64) (k : Fin 256) : idx_main_v14 (ix1 m) k = ix2 m k := by
  funext a; match a with | ⟨0, _⟩ => rfl | ⟨1, _⟩ => rfl

/-! ## The first log-softmax, over the rows -/

/-- The reduction's row maximum is the fold of max from -∞ over the row's lanes. -/
theorem c0_v0_at (x0 : X0) (T : Fin 4096) (m : Fin 64) :
    val_main_call0_v0 (F := Ideal) x0 (ix2 T m)
      = (Finset.univ : Finset (Fin 256)).fold max negInf (rows x0 T m) := by
  show _ = (Finset.univ : Finset (Fin 256)).fold max negInf (fun k => val_main_v0 (F := Ideal) x0 (ix3 T m k))
  unfold val_main_call0_v0
  generalize val_main_v0 (F := Ideal) x0 = y
  rw [Host.reduce_eq_fold_single (FloatOps.maximumf (F := Ideal) (φ := .f32)) y _ reducesTo_S4096x64x256_S4096x64_d2 reduces_c0 h_S_ (ix2 T m)]
  have hy : (y ∘ reduces_c0.lift (ix2 T m)) = fun k : Fin 256 => y (ix3 T m k) :=
    funext fun k => congrArg y (funext fun a => Fin.ext (by match a with | ⟨0, _⟩ => rfl | ⟨1, _⟩ => rfl | ⟨2, _⟩ => rfl))
  rw [hy]
  rfl

/-- Joined with -∞ it is the row's maximum. -/
theorem c0_v2_at (x0 : X0) (T : Fin 4096) (m : Fin 64) :
    val_main_call0_v2 (F := Ideal) x0 (ix2 T m) = rowMax (rows x0 T m) := by
  rw [val_main_call0_v2_apply, val_main_call0_v1_apply, val_main_call0_cst_0_apply, c0_v0_at]
  rfl

/-- The row shifted by its maximum. -/
theorem c0_v5_at (x0 : X0) (T : Fin 4096) (m : Fin 64) (k : Fin 256) :
    val_main_call0_v5 (F := Ideal) x0 (ix3 T m k) = rowShift (rows x0 T m) k := by
  rw [val_main_call0_v5_apply, val_main_call0_v4_apply, val_main_call0_v3_apply, i34, c0_v2_at]
  rfl

/-- The sum of the exponentials of the shifted row. -/
theorem c0_v7_at (x0 : X0) (T : Fin 4096) (m : Fin 64) :
    val_main_call0_v7 (F := Ideal) x0 (ix2 T m) = ∑ k : Fin 256, Ideal.exp (rowShift (rows x0 T m) k) := by
  rw [val_main_call0_v7_apply, val_main_call0_cst_1_apply, zero_word, zero_add]
  refine Finset.sum_congr rfl fun k _ => ?_
  rw [i7, val_main_call0_v6_apply, c0_v5_at]
  rfl

/-- The first log-softmax at (T, m, k) is the row's. -/
theorem v1_at (x0 : X0) (T : Fin 4096) (m : Fin 64) (k : Fin 256) :
    val_main_v1 (F := Ideal) x0 (ix3 T m k) = rowLsm (rows x0 T m) k := by
  rw [val_main_v1_apply, val_main_call0_v10_apply, val_main_call0_v9_apply, val_main_call0_v8_apply, i810,
    c0_v7_at, c0_v5_at]
  rfl

/-- Σₖ exp(lsm) · lsm of the row. -/
theorem v4_at (x0 : X0) (T : Fin 4096) (m : Fin 64) :
    val_main_v4 (F := Ideal) x0 (ix2 T m) = rowPlogp (rows x0 T m) := by
  rw [val_main_v4_apply, val_main_cst_apply, zero_word, zero_add]
  refine Finset.sum_congr rfl fun k _ => ?_
  rw [i4, val_main_v3_apply, val_main_v2_apply, v1_at]
  rfl

/-- The first term: the mean over rows and blocks of the entropies. -/
theorem v7_at (x0 : X0) (i : S_.Idx) :
    val_main_v7 (F := Ideal) x0 i
      = Ideal.div (∑ T : Fin 4096, ∑ m : Fin 64, -(rowPlogp (rows x0 T m))) w262144 := by
  rw [val_main_v7_apply, val_main_v6_apply, val_main_cst_0_apply, zero_word, zero_add, val_main_cst_1_apply, sum_idx2]
  refine congrArg (fun s => Ideal.div s w262144) ?_
  refine Finset.sum_congr rfl fun T _ => Finset.sum_congr rfl fun m _ => ?_
  rw [val_main_v5_apply, v4_at]
  rfl

/-! ## The block means and the second log-softmax -/

/-- The block mean at (m, k). -/
theorem v10_at (x0 : X0) (m : Fin 64) (k : Fin 256) :
    val_main_v10 (F := Ideal) x0 (ix2 m k) = meanRow (rows x0) m k := by
  rw [val_main_v10_apply, val_main_v8_apply, val_main_cst_2_apply, zero_word, zero_add, val_main_v9_apply,
    val_main_cst_3_apply]
  refine congrArg (fun s => Ideal.div s w4096) ?_
  refine Finset.sum_congr rfl fun T _ => ?_
  rw [i8]
  rfl

/-- The second reduction's row maximum. -/
theorem c1_v0_at (x0 : X0) (m : Fin 64) :
    val_main_call1_v0 (F := Ideal) x0 (ix1 m)
      = (Finset.univ : Finset (Fin 256)).fold max negInf (meanRow (rows x0) m) := by
  have h10 : ∀ k : Fin 256, val_main_v10 (F := Ideal) x0 (ix2 m k) = meanRow (rows x0) m k := v10_at x0 m
  unfold val_main_call1_v0
  generalize val_main_v10 (F := Ideal) x0 = y at h10 ⊢
  rw [Host.reduce_eq_fold_single (FloatOps.maximumf (F := Ideal) (φ := .f32)) y _ reducesTo_S64x256_S64_d1 reduces_c1 h_S_ (ix1 m)]
  have hy : (y ∘ reduces_c1.lift (ix1 m)) = meanRow (rows x0) m :=
    funext fun k => (congrArg y (funext fun a => Fin.ext (by match a with | ⟨0, _⟩ => rfl | ⟨1, _⟩ => rfl))).trans (h10 k)
  rw [hy]
  rfl

theorem c1_v2_at (x0 : X0) (m : Fin 64) :
    val_main_call1_v2 (F := Ideal) x0 (ix1 m) = rowMax (meanRow (rows x0) m) := by
  rw [val_main_call1_v2_apply, val_main_call1_v1_apply, val_main_call1_cst_0_apply, c1_v0_at]
  rfl

theorem c1_v5_at (x0 : X0) (m : Fin 64) (k : Fin 256) :
    val_main_call1_v5 (F := Ideal) x0 (ix2 m k) = rowShift (meanRow (rows x0) m) k := by
  rw [val_main_call1_v5_apply, val_main_call1_v4_apply, val_main_call1_v3_apply, j34, c1_v2_at, v10_at]
  rfl

theorem c1_v7_at (x0 : X0) (m : Fin 64) :
    val_main_call1_v7 (F := Ideal) x0 (ix1 m) = ∑ k : Fin 256, Ideal.exp (rowShift (meanRow (rows x0) m) k) := by
  rw [val_main_call1_v7_apply, val_main_call1_cst_1_apply, zero_word, zero_add]
  refine Finset.sum_congr rfl fun k _ => ?_
  rw [j7, val_main_call1_v6_apply, c1_v5_at]
  rfl

/-- The second log-softmax at (m, k) is the mean row's. -/
theorem v11_at (x0 : X0) (m : Fin 64) (k : Fin 256) :
    val_main_v11 (F := Ideal) x0 (ix2 m k) = rowLsm (meanRow (rows x0) m) k := by
  rw [val_main_v11_apply, val_main_call1_v10_apply, val_main_call1_v9_apply, val_main_call1_v8_apply, j810,
    c1_v7_at, c1_v5_at]
  rfl

theorem v14_at (x0 : X0) (m : Fin 64) :
    val_main_v14 (F := Ideal) x0 (ix1 m) = rowPlogp (meanRow (rows x0) m) := by
  rw [val_main_v14_apply, val_main_cst_4_apply, zero_word, zero_add]
  refine Finset.sum_congr rfl fun k _ => ?_
  rw [j14, val_main_v13_apply, val_main_v12_apply, v11_at]
  rfl

/-- A sum over the rank-1 index set is the sum over its coordinate. -/
theorem sum_idx1 {M : Type*} [AddCommMonoid M] (f : S64.Idx → M) : ∑ j, f j = ∑ m : Fin 64, f (ix1 m) := by
  refine Fintype.sum_equiv ⟨fun j => j 0, fun m => ix1 m, fun j => (eq_ix1 j).symm, fun _ => rfl⟩ _ _ fun j => ?_
  exact congrArg f (eq_ix1 j)

/-- The second term: minus the sum of the mean rows' entropies, over 64. -/
theorem v18_at (x0 : X0) (i : S_.Idx) :
    val_main_v18 (F := Ideal) x0 i
      = Ideal.div (-(∑ m : Fin 64, -(rowPlogp (meanRow (rows x0) m)))) w64 := by
  rw [val_main_v18_apply, val_main_v17_apply, val_main_v16_apply, val_main_cst_5_apply, zero_word, zero_add,
    val_main_cst_6_apply, sum_idx1]
  refine congrArg (fun s => Ideal.div (-s) w64) ?_
  refine Finset.sum_congr rfl fun m _ => ?_
  rw [val_main_v15_apply, v14_at]
  rfl

/-- The reference's result is the loss of those rows. -/
theorem ref_value (x0 : (⟨S4096x16384, .f32⟩ : BufTy).Contents (Elt Ideal)) (i : S_.Idx) :
    val_main_v20 (F := Ideal) x0 i = loss (rows x0) := by
  rw [val_main_v20_apply, val_main_v19_apply, val_main_cst_7_apply, v7_at, v18_at]
  rfl

end Cert.ReferenceIdeal.RefValue

end
-- ==== Proof.lean ====
/-
  The certificate of the streaming entropy loss: a tiled kernel that walks the 4096 × (64·256) input in 64 tiles of 64
  rows, accumulating the softmax entropies of all (row, block) lanes and the per-block column sums, and on the last tile
  closes with the entropy of the batch-mean rows — against the plain formula: mean entropy over (row, block) plus
  minus-the-summed entropy of the batch means over 64.

  Over the extended reals both are `loss` of the input read as rows × blocks × lanes (Proof/Spec.lean): the kernel's
  tile-by-tile sums are the whole sums regrouped (commutativity and associativity of finite sums only, so the
  precondition is never opened), its `0 - s` is `-s`, and the divisions, exponentials and logarithms are the same
  functions on both sides. The two frames of the kernel are its generated frame runs; the reference's frame is its run
  with the result dropped; nothing was rewritten by the idealization, so there is nothing to preserve.
-/
import proofs.«161129_j472446403063_1_alg».proof.Defs
import proofs.«161129_j472446403063_1_alg».proof.Proof.Gen.Kernel
import proofs.«161129_j472446403063_1_alg».proof.Proof.Gen.Kernel.Frame
import proofs.«161129_j472446403063_1_alg».proof.Proof.Gen.KernelIdeal
import proofs.«161129_j472446403063_1_alg».proof.Proof.Gen.KernelIdeal.Frame
import proofs.«161129_j472446403063_1_alg».proof.Proof.Gen.ReferenceIdeal
import proofs.«161129_j472446403063_1_alg».proof.Proof.Gen.Pre_finite_inputs
import proofs.«161129_j472446403063_1_alg».proof.Proof.Spec
import proofs.«161129_j472446403063_1_alg».proof.Proof.KValue
import proofs.«161129_j472446403063_1_alg».proof.Proof.RefRun
import proofs.«161129_j472446403063_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- The kernel's reshaped input and the reference's are the same rows of the same argument. -/
theorem rows_eq (m : (ℓ : Loc Cert.KernelIdeal.nD Cert.KernelIdeal.τ Cert.KernelIdeal.sig) → Buf (Elt Ideal) ℓ)
    (c : Dev Cert.KernelIdeal.nD) :
    Cert.KernelIdeal.KValue.rowsK m c
      = Cert.ReferenceIdeal.RefValue.rows (m ((c.tc : Thread Cert.KernelIdeal.nD Cert.KernelIdeal.τ).loc Cert.KernelIdeal.main_arg0)) := by
  funext T b k
  unfold Cert.KernelIdeal.KValue.rowsK Cert.ReferenceIdeal.RefValue.rows
  rw [Cert.KernelIdeal.KValue.xarr_eq]
  rfl

/-- At the ideal instance the kernel's scalar ends at the loss of the argument's rows (the accumulators' invariant and
    the closing formula), and the reference's at its last stage, which is the same loss of the same rows. -/
theorem algebraic : Cert.algebraic_KernelIdeal_ReferenceIdeal := by
  intro m ρ m' ρ' _ hagree
  refine ⟨fun c => (fun _ => Cert.EntropyLoss.loss (Cert.KernelIdeal.KValue.rowsK m c)), Cert.KernelIdeal.KValue.run m ρ, ?_⟩
  refine (θ_run Cert.ReferenceIdeal.defs _ _).mono (fun _ h c => ⟨(h c).1.trans ?_, (h c).2⟩)
    (Cert.ReferenceIdeal.HandRun.run (F := Ideal) m' ρ')
  funext i
  show _ = Cert.EntropyLoss.loss (Cert.KernelIdeal.KValue.rowsK m c)
  rw [Cert.ReferenceIdeal.RefValue.ref_value, hagree c, rows_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
